-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S512x1536 : Shape := ⟨2, ![512, 1536]⟩
abbrev S512 : Shape := ⟨1, ![512]⟩
abbrev S100000x3x1 : Shape := ⟨3, ![100000, 3, 1]⟩
abbrev S100000 : Shape := ⟨1, ![100000]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x1536 : S_.BroadcastsInDim S512x1536 (![] : Fin 0 → Fin S512x1536.rank)
  reducesTo_S512x1536_S_d0_1 : S512x1536.ReducesTo [0, 1] S_
  bcast_S_S512 : S_.BroadcastsInDim S512 (![] : Fin 0 → Fin S512.rank)
  reducesTo_S512_S_d0 : S512.ReducesTo [0] S_
  bcast_S_S100000x3x1 : S_.BroadcastsInDim S100000x3x1 (![] : Fin 0 → Fin S100000x3x1.rank)
  reducesTo_S100000x3x1_S_d0_1_2 : S100000x3x1.ReducesTo [0, 1, 2] S_

variable [Facts]

def fn_part1 {F : FTy → Type} [FloatOps F] (main_v13 : IVec S_ 1) (main_v16 : IVec S100000x3x1 1) : IVec S_ 1 :=
  let main_c_5 : IVec S_ 1 := constantI S_ 1 1#1
  let main_v17 : IVec S_ 1 := (fun x v => Host.reduce IntOp.andi x v reducesTo_S100000x3x1_S_d0_1_2 h_S_) main_v16 main_c_5
  let main_v18 : IVec S_ 1 := andi main_v13 main_v17
  main_v18

def fn {F : FTy → Type} [FloatOps F] (main_arg0 : FVec F S100000x512 .f32) (main_arg1 : FVec F S512x1536 .f32) (main_arg2 : FVec F S512 .f32) (main_arg3 : FVec F S100000x3x1 .f32) (main_arg4 : IVec S100000 32) (main_arg5 : IVec S100000 32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x1536 .f32 := Host.absf main_arg1
  let main_cst_0 : FVec F S_ .f32 := constant S_ .f32 0x7F800000#32
  let main_v5 : FVec F S512x1536 .f32 := broadcastInDim S512x1536 ![] bcast_S_S512x1536 main_cst_0
  let main_v6 : IVec S512x1536 1 := cmpf .olt main_v4 main_v5
  let main_c_1 : IVec S_ 1 := constantI S_ 1 1#1
  let main_v7 : IVec S_ 1 := (fun x v => Host.reduce IntOp.andi x v reducesTo_S512x1536_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S100000x3x1 .f32 := Host.absf main_arg3
  let main_cst_4 : FVec F S_ .f32 := constant S_ .f32 0x7F800000#32
  let main_v15 : FVec F S100000x3x1 .f32 := broadcastInDim S100000x3x1 ![] bcast_S_S100000x3x1 main_cst_4
  let main_v16 : IVec S100000x3x1 1 := cmpf .olt main_v14 main_v15
  fn_part1 (F := F) main_v13 main_v16
-- ==== Kernel.lean ====
abbrev S100000x512 : Shape := ⟨2, ![100000, 512]⟩
abbrev S512x1536 : Shape := ⟨2, ![512, 1536]⟩
abbrev S512 : Shape := ⟨1, ![512]⟩
abbrev S100000x3x1 : Shape := ⟨3, ![100000, 3, 1]⟩
abbrev S100000 : Shape := ⟨1, ![100000]⟩
abbrev S100000x1536 : Shape := ⟨2, ![100000, 1536]⟩
abbrev S800x512 : Shape := ⟨2, ![800, 512]⟩
abbrev S800x1536 : Shape := ⟨2, ![800, 1536]⟩
abbrev S100000x3x512 : Shape := ⟨3, ![100000, 3, 512]⟩
abbrev S_ : Shape := ⟨0, ![]⟩
abbrev S100000x1 : Shape := ⟨2, ![100000, 1]⟩
abbrev S1x512 : Shape := ⟨2, ![1, 512]⟩

abbrev nBuf : Space → Nat
  | .hbm => 25
  | .vmem => 10
  | .smem => 0
  | _ => 0

abbrev bufTy : (tb : Table) → Fin (tcTables nBuf tb) → BufTy
  | .hbm, ⟨0, _⟩ => ⟨S100000x512, .f32⟩
  | .hbm, ⟨1, _⟩ => ⟨S512x1536, .f32⟩
  | .hbm, ⟨2, _⟩ => ⟨S512, .f32⟩
  | .hbm, ⟨3, _⟩ => ⟨S100000x3x1, .f32⟩
  | .hbm, ⟨4, _⟩ => ⟨S100000, .i32⟩
  | .hbm, ⟨5, _⟩ => ⟨S100000, .i32⟩
  | .hbm, ⟨6, _⟩ => ⟨S100000x1536, .f32⟩
  | .hbm, ⟨7, _⟩ => ⟨S100000x3x512, .f32⟩
  | .hbm, ⟨8, _⟩ => ⟨S_, .i32⟩
  | .hbm, ⟨9, _⟩ => ⟨S100000, .i32⟩
  | .hbm, ⟨10, _⟩ => ⟨S100000, .i1⟩
  | .hbm, ⟨11, _⟩ => ⟨S_, .i32⟩
  | .hbm, ⟨12, _⟩ => ⟨S100000, .i32⟩
  | .hbm, ⟨13, _⟩ => ⟨S100000, .i32⟩
  | .hbm, ⟨14, _⟩ => ⟨S100000, .i32⟩
  | .hbm, ⟨15, _⟩ => ⟨S100000x1, .i32⟩
  | .hbm, ⟨16, _⟩ => ⟨S100000x3x512, .f32⟩
  | .hbm, ⟨17, _⟩ => ⟨S100000x3x512, .f32⟩
  | .hbm, ⟨18, _⟩ => ⟨S100000x3x512, .f32⟩
  | .hbm, ⟨19, _⟩ => ⟨S_, .f32⟩
  | .hbm, ⟨20, _⟩ => ⟨S100000x3x512, .f32⟩
  | .hbm, ⟨21, _⟩ => ⟨S100000x1, .i32⟩
  | .hbm, ⟨22, _⟩ => ⟨S100000x3x512, .f32⟩
  | .hbm, ⟨23, _⟩ => ⟨S100000x1536, .f32⟩
  | .hbm, ⟨24, _⟩ => ⟨S100000x512, .f32⟩
  | .local _ .vmem, ⟨0, _⟩ => ⟨S800x512, .f32⟩
  | .local _ .vmem, ⟨1, _⟩ => ⟨S800x512, .f32⟩
  | .local _ .vmem, ⟨2, _⟩ => ⟨S512x1536, .f32⟩
  | .local _ .vmem, ⟨3, _⟩ => ⟨S800x1536, .f32⟩
  | .local _ .vmem, ⟨4, _⟩ => ⟨S800x1536, .f32⟩
  | .local _ .vmem, ⟨5, _⟩ => ⟨S800x1536, .f32⟩
  | .local _ .vmem, ⟨6, _⟩ => ⟨S800x1536, .f32⟩
  | .local _ .vmem, ⟨7, _⟩ => ⟨S512, .f32⟩
  | .local _ .vmem, ⟨8, _⟩ => ⟨S800x512, .f32⟩
  | .local _ .vmem, ⟨9, _⟩ => ⟨S800x512, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S800x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S800x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![125], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S800x1536 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S800x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S800x512_S800x512_0_0 : ∀ a, (![0, 0] : Fin 2 → Nat) a + S800x512.size a ≤ S800x512.size a
  h_S800x512 : 0 < S800x512.numel
  bitsLt_bf16_f32 : FTy.bits .bf16 < FTy.bits .f32
  inb_S512x1536_S512x1536_0_0 : ∀ a, (![0, 0] : Fin 2 → Nat) a + S512x1536.size a ≤ S512x1536.size a
  h_S512x1536 : 0 < S512x1536.numel
  inb_S800x1536_S800x1536_0_0 : ∀ a, (![0, 0] : Fin 2 → Nat) a + S800x1536.size a ≤ S800x1536.size a
  h_S800x1536 : 0 < S800x1536.numel
  shapeCasts_S100000x1536_S100000x3x512 : S100000x1536.ShapeCasts S100000x3x512
  bcast_S_S100000 : S_.BroadcastsInDim S100000 (![] : Fin 0 → Fin S100000.rank)
  bcast_S100000_S100000x1_0 : S100000.BroadcastsInDim S100000x1 (![0] : Fin 1 → Fin S100000x1.rank)
  bcast_S100000x3x1_S100000x3x512_0_1_2 : S100000x3x1.BroadcastsInDim S100000x3x512 (![0, 1, 2] : Fin 3 → Fin S100000x3x512.rank)
  bcast_S_S100000x3x512 : S_.BroadcastsInDim S100000x3x512 (![] : Fin 0 → Fin S100000x3x512.rank)
  shapeCasts_S100000x3x512_S100000x1536 : S100000x3x512.ShapeCasts S100000x1536
  shapeCasts_S800x1536_S800x1536 : S800x1536.ShapeCasts S800x1536
  slices_S800x1536_o0_0_S800x512 : S800x1536.Slices ![0, 0] S800x512
  slices_S800x1536_o0_512_S800x512 : S800x1536.Slices ![0, 512] S800x512
  slices_S800x1536_o0_1024_S800x512 : S800x1536.Slices ![0, 1024] S800x512
  inb_S512_S512_0 : ∀ a, (![0] : Fin 1 → Nat) a + S512.size a ≤ S512.size a
  h_S512 : 0 < S512.numel
  shapeCasts_S512_S1x512 : S512.ShapeCasts S1x512
  broadcasts_S1x512_S800x512 : S1x512.Broadcasts S800x512
  dot_S800x512_S512x1536_S800x1536_1_0_0_1_n_n_wf : DotDims.WF S800x512 S512x1536 S800x1536 [1] [0] [0] [1] [] []
  gather_S100000x3x512_S100000x1_S100000x3x512_12_0_n_n_0_1_13512_wf : GatherDims.WF S100000x3x512 S100000x1 S100000x3x512 [1, 2] [0] [] [0] [] 1 ![1, 3, 512]
  scatter_S100000x3x512_S100000x1_S100000x3x512_12_0_0_1_wf : ScatterDims.WF S100000x3x512 S100000x1 S100000x3x512 [1, 2] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S800x512.size a ≤ S100000x512.size a
  hwx0_0 : ∀ i : grid0.Coords, EltTy.bits .f32 = 32 ∨ (Rect.block (s := S100000x512) S800x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x1536.size a ≤ S512x1536.size a
  hwx0_1 : ∀ i : grid0.Coords, EltTy.bits .f32 = 32 ∨ (Rect.block (s := S512x1536) S512x1536.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S800x1536.size a ≤ S100000x1536.size a
  hwx0_2 : ∀ i : grid0.Coords, EltTy.bits .f32 = 32 ∨ (Rect.block (s := S100000x1536) S800x1536.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S800x1536.size a ≤ S100000x1536.size a
  hwx1_0 : ∀ i : grid1.Coords, EltTy.bits .f32 = 32 ∨ (Rect.block (s := S100000x1536) S800x1536.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512.size a ≤ S512.size a
  hwx1_1 : ∀ i : grid1.Coords, EltTy.bits .f32 = 32 ∨ (Rect.block (s := S512) S512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S800x512.size a ≤ S100000x512.size a
  hwx1_2 : ∀ i : grid1.Coords, EltTy.bits .f32 = 32 ∨ (Rect.block (s := S100000x512) S800x512.size (cc1_transform_2 i) (hinb1_2 i)).WholeWords (EltTy.packing .f32)

variable [Facts₀]

def dot_S800x512_S512x1536_S800x1536_1_0_0_1_n_n : DotDims S800x512 S512x1536 S800x1536 where
  lhsContracting := [1]
  rhsContracting := [0]
  lhsNonContracting := [0]
  rhsNonContracting := [1]
  lhsBatch := []
  rhsBatch := []
  wf := dot_S800x512_S512x1536_S800x1536_1_0_0_1_n_n_wf
def gather_S100000x3x512_S100000x1_S100000x3x512_12_0_n_n_0_1_13512 : GatherDims S100000x3x512 S100000x1 S100000x3x512 where
  offsetDims := [1, 2]
  collapsedSliceDims := [0]
  operandBatchingDims := []
  startIndicesBatchingDims := []
  startIndexMap := [0]
  indexVectorDim := 1
  sliceSizes := ![1, 3, 512]
  wf := gather_S100000x3x512_S100000x1_S100000x3x512_12_0_n_n_0_1_13512_wf
def scatter_S100000x3x512_S100000x1_S100000x3x512_12_0_0_1 : ScatterDims S100000x3x512 S100000x1 S100000x3x512 where
  updateWindowDims := [1, 2]
  insertedWindowDims := [0]
  scatterDimsToOperandDims := [0]
  indexVectorDim := 1
  wf := scatter_S100000x3x512_S100000x1_S100000x3x512_12_0_0_1_wf

abbrev win0_0 : Pipeline.Window sig grid0 :=
  Pipeline.Window.ofSpec (Memref.whole main_arg0) S800x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1536.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S800x1536.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v14) S800x1536.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v15) S800x512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x512 : Shape := ⟨2, ![100000, 512]⟩
abbrev S512x1536 : Shape := ⟨2, ![512, 1536]⟩
abbrev S512 : Shape := ⟨1, ![512]⟩
abbrev S100000x3x1 : Shape := ⟨3, ![100000, 3, 1]⟩
abbrev S100000 : Shape := ⟨1, ![100000]⟩
abbrev S100000x1536 : Shape := ⟨2, ![100000, 1536]⟩
abbrev S100000x3x512 : Shape := ⟨3, ![100000, 3, 512]⟩
abbrev S_ : Shape := ⟨0, ![]⟩
abbrev S100000x1 : Shape := ⟨2, ![100000, 1]⟩
abbrev S1x512 : Shape := ⟨2, ![1, 512]⟩

abbrev nBuf : Space → Nat
  | .hbm => 29
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S512x1536, .f32⟩
  | .hbm, ⟨2, _⟩ => ⟨S512, .f32⟩
  | .hbm, ⟨3, _⟩ => ⟨S100000x3x1, .f32⟩
  | .hbm, ⟨4, _⟩ => ⟨S100000, .i32⟩
  | .hbm, ⟨5, _⟩ => ⟨S100000, .i32⟩
  | .hbm, ⟨6, _⟩ => ⟨S100000x1536, .f32⟩
  | .hbm, ⟨7, _⟩ => ⟨S100000x3x512, .f32⟩
  | .hbm, ⟨8, _⟩ => ⟨S_, .i32⟩
  | .hbm, ⟨9, _⟩ => ⟨S100000, .i32⟩
  | .hbm, ⟨10, _⟩ => ⟨S100000, .i1⟩
  | .hbm, ⟨11, _⟩ => ⟨S_, .i32⟩
  | .hbm, ⟨12, _⟩ => ⟨S100000, .i32⟩
  | .hbm, ⟨13, _⟩ => ⟨S100000, .i32⟩
  | .hbm, ⟨14, _⟩ => ⟨S100000, .i32⟩
  | .hbm, ⟨15, _⟩ => ⟨S100000x1, .i32⟩
  | .hbm, ⟨16, _⟩ => ⟨S100000x3x512, .f32⟩
  | .hbm, ⟨17, _⟩ => ⟨S100000x3x512, .f32⟩
  | .hbm, ⟨18, _⟩ => ⟨S100000x3x512, .f32⟩
  | .hbm, ⟨19, _⟩ => ⟨S_, .f32⟩
  | .hbm, ⟨20, _⟩ => ⟨S100000x3x512, .f32⟩
  | .hbm, ⟨21, _⟩ => ⟨S100000x1, .i32⟩
  | .hbm, ⟨22, _⟩ => ⟨S100000x3x512, .f32⟩
  | .hbm, ⟨23, _⟩ => ⟨S_, .f32⟩
  | .hbm, ⟨24, _⟩ => ⟨S100000x512, .f32⟩
  | .hbm, ⟨25, _⟩ => ⟨S1x512, .f32⟩
  | .hbm, ⟨26, _⟩ => ⟨S100000x512, .f32⟩
  | .hbm, ⟨27, _⟩ => ⟨S100000x512, .f32⟩
  | .hbm, ⟨28, _⟩ => ⟨S100000x512, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩

abbrev nD : Nat := 1
abbrev τ : Topo := Topo.v7x

variable {F : FTy → Type} [FloatOps F]

class Facts₀ : Prop where
  shapeCasts_S100000x1536_S100000x3x512 : S100000x1536.ShapeCasts S100000x3x512
  bcast_S_S100000 : S_.BroadcastsInDim S100000 (![] : Fin 0 → Fin S100000.rank)
  bcast_S100000_S100000x1_0 : S100000.BroadcastsInDim S100000x1 (![0] : Fin 1 → Fin S100000x1.rank)
  bcast_S100000x3x1_S100000x3x512_0_1_2 : S100000x3x1.BroadcastsInDim S100000x3x512 (![0, 1, 2] : Fin 3 → Fin S100000x3x512.rank)
  bcast_S_S100000x3x512 : S_.BroadcastsInDim S100000x3x512 (![] : Fin 0 → Fin S100000x3x512.rank)
  reducesTo_S100000x3x512_S100000x512_d1 : S100000x3x512.ReducesTo [1] S100000x512
  h_S_ : 0 < S_.numel
  bcast_S512_S1x512_1 : S512.BroadcastsInDim S1x512 (![1] : Fin 1 → Fin S1x512.rank)
  bcast_S1x512_S100000x512_0_1 : S1x512.BroadcastsInDim S100000x512 (![0, 1] : Fin 2 → Fin S100000x512.rank)
  dot_S100000x512_S512x1536_S100000x1536_1_0_0_1_n_n_wf : DotDims.WF S100000x512 S512x1536 S100000x1536 [1] [0] [0] [1] [] []
  gather_S100000x3x512_S100000x1_S100000x3x512_12_0_n_n_0_1_13512_wf : GatherDims.WF S100000x3x512 S100000x1 S100000x3x512 [1, 2] [0] [] [0] [] 1 ![1, 3, 512]
  scatter_S100000x3x512_S100000x1_S100000x3x512_12_0_0_1_wf : ScatterDims.WF S100000x3x512 S100000x1 S100000x3x512 [1, 2] [0] [0] 1

variable [Facts₀]

def dot_S100000x512_S512x1536_S100000x1536_1_0_0_1_n_n : DotDims S100000x512 S512x1536 S100000x1536 where
  lhsContracting := [1]
  rhsContracting := [0]
  lhsNonContracting := [0]
  rhsNonContracting := [1]
  lhsBatch := []
  rhsBatch := []
  wf := dot_S100000x512_S512x1536_S100000x1536_1_0_0_1_n_n_wf
def gather_S100000x3x512_S100000x1_S100000x3x512_12_0_n_n_0_1_13512 : GatherDims S100000x3x512 S100000x1 S100000x3x512 where
  offsetDims := [1, 2]
  collapsedSliceDims := [0]
  operandBatchingDims := []
  startIndicesBatchingDims := []
  startIndexMap := [0]
  indexVectorDim := 1
  sliceSizes := ![1, 3, 512]
  wf := gather_S100000x3x512_S100000x1_S100000x3x512_12_0_n_n_0_1_13512_wf
def scatter_S100000x3x512_S100000x1_S100000x3x512_12_0_0_1 : ScatterDims S100000x3x512 S100000x1 S100000x3x512 where
  updateWindowDims := [1, 2]
  insertedWindowDims := [0]
  scatterDimsToOperandDims := [0]
  indexVectorDim := 1
  wf := scatter_S100000x3x512_S100000x1_S100000x3x512_12_0_0_1_wf

class Facts : Prop extends Facts₀ where

variable [Facts]
-- ==== Proof.MatmulRegion.lean ====
/-
  The first kernel region read as a value, at the extended reals. Its body takes a block of 800 rows of x
  ([100000, 512]) and the whole of W ([512, 1536]) and writes the block's rows times W: at row p and column j,
      ∑ k < 512, x[p, k] · W[k, j]
  (the change of float format before the product is the identity on extended reals, and the product is accumulated
  into zero). `rowsByCols` states this sum once for any number of rows, so the same definition reads a block and
  the whole array. The output's blocks tile its array (point t holds rows 800 t … 800 t + 799), the x block at
  point t is the same rows of x, and W's one block is W: hence after the region the output array is
  `rowsByCols x W`.
-/
import proofs.«167288_j47536698032657_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Whole

open Cert.KernelIdeal Cert.KernelIdeal.Gen
open Idealize.ShloMosaic Idealize.ShloMosaic.TcCoe Idealize.SL.Sem Idealize.ShloMosaic.ValueIdx
open Idealize.ShloMosaic.Pipeline (Dat)

/-- Row `i 0` of `x` against column `i 1` of `w`: one entry of the matrix product. -/
def rowsByCols {R : Nat} (x : (⟨2, ![R, 512]⟩ : Shape).Idx → EReal) (w : (⟨2, ![512, 1536]⟩ : Shape).Idx → EReal) :
    (⟨2, ![R, 1536]⟩ : Shape).Idx → EReal :=
  fun i => ∑ k : Fin 512, x (ix2 (n0 := R) (n1 := 512) ⟨(i 0).val, (i 0).isLt⟩ k)
    * w (ix2 (n0 := 512) (n1 := 1536) k ⟨(i 1).val, (i 1).isLt⟩)

theorem zero2' : (![0, 0] : Fin 2 → Nat) = fun _ => 0 := funext fun a => by fin_cases a <;> rfl

/-! The operand indices of the body's contraction, axis by axis: the left operand is read at (row of the output,
    contraction index), the right at (contraction index, column of the output). -/

theorem mm_lhs_0 (i : S800x1536.Idx) (q : dot_S800x512_S512x1536_S800x1536_1_0_0_1_n_n.contr.Idx) :
    (dot_S800x512_S512x1536_S800x1536_1_0_0_1_n_n.lhsIdx i q 0).val = (i 0).val := by
  unfold DotDims.lhsIdx
  rw [dif_neg (show ¬(0 : Fin S800x512.rank) ∈ dot_S800x512_S512x1536_S800x1536_1_0_0_1_n_n.lhsBatch by decide), dif_pos (show (0 : Fin S800x512.rank) ∈ dot_S800x512_S512x1536_S800x1536_1_0_0_1_n_n.lhsNonContracting by decide)]
  rfl
theorem mm_lhs_1 (i : S800x1536.Idx) (q : dot_S800x512_S512x1536_S800x1536_1_0_0_1_n_n.contr.Idx) :
    (dot_S800x512_S512x1536_S800x1536_1_0_0_1_n_n.lhsIdx i q 1).val = (q ⟨0, by decide⟩).val :=
  dot_S800x512_S512x1536_S800x1536_1_0_0_1_n_n.lhsIdx_val_of_single rfl i q
theorem mm_rhs_0 (i : S800x1536.Idx) (q : dot_S800x512_S512x1536_S800x1536_1_0_0_1_n_n.contr.Idx) :
    (dot_S800x512_S512x1536_S800x1536_1_0_0_1_n_n.rhsIdx i q 0).val = (q ⟨0, by decide⟩).val :=
  dot_S800x512_S512x1536_S800x1536_1_0_0_1_n_n.rhsIdx_val_of_single rfl i q
theorem mm_rhs_1 (i : S800x1536.Idx) (q : dot_S800x512_S512x1536_S800x1536_1_0_0_1_n_n.contr.Idx) :
    (dot_S800x512_S512x1536_S800x1536_1_0_0_1_n_n.rhsIdx i q 1).val = (i 1).val := by
  unfold DotDims.rhsIdx
  rw [dif_neg (show ¬(1 : Fin S512x1536.rank) ∈ dot_S800x512_S512x1536_S800x1536_1_0_0_1_n_n.rhsBatch by decide), dif_pos (show (1 : Fin S512x1536.rank) ∈ dot_S800x512_S512x1536_S800x1536_1_0_0_1_n_n.rhsNonContracting by decide)]
  rfl

/-- The body's arithmetic is the product of its two loaded blocks, entry by entry the sum over the contraction. -/
theorem matmul_payload (x0 : Vec Ideal S800x512 .f32) (x1 : Vec Ideal S512x1536 .f32) : k0_pay1 x0 x1 = rowsByCols x0 x1 := by
  funext i
  unfold k0_pay1 rowsByCols
  dsimp only
  refine (Ideal.matmul_constant_zero_apply dot_S800x512_S512x1536_S800x1536_1_0_0_1_n_n none _ _ i).trans ?_
  rw [← Equiv.sum_comp (ValueIdx.contrEquiv1 dot_S800x512_S512x1536_S800x1536_1_0_0_1_n_n 512 rfl rfl).symm]
  refine Finset.sum_congr rfl fun k _ => ?_
  have hk := ValueIdx.contrEquiv1_symm_val dot_S800x512_S512x1536_S800x1536_1_0_0_1_n_n 512 rfl rfl k
  rw [truncf_apply, truncf_apply]
  refine congrArg₂ (· * ·) (congrArg x0 (funext fun a => Fin.ext ?_)) (congrArg x1 (funext fun a => Fin.ext ?_))
  · match a with
    | ⟨0, _⟩ => exact mm_lhs_0 _ _
    | ⟨1, _⟩ => exact (mm_lhs_1 _ _).trans hk
  · match a with
    | ⟨0, _⟩ => exact (mm_rhs_0 _ _).trans hk
    | ⟨1, _⟩ => exact mm_rhs_1 _ _

section Region
variable (V : (c : Dev nD) → (b : Ref sig .tc) → Buf (Elt Ideal) ((c : Thread nD τ).loc b))

/-- Where the first region's windows sit at point t: x's and the output's row block is t, every other block index 0. -/
theorem matmul_blocks : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The two argument arrays as the region finds them, at their literal types. -/
abbrev xArr (c : Dev nD) : Vec Ideal S100000x512 .f32 := V c main_arg0
abbrev wArr (c : Dev nD) : Vec Ideal S512x1536 .f32 := V c main_arg1

/-- The x block at point t is rows 800 t … of x. -/
theorem matmul_x_block (c : Dev nD) (t : Fin cfg0.N) (y : S800x512.Idx) (k : S100000x512.Idx)
    (hk0 : (k 0).val = 800 * t.val + (y 0).val) (hk1 : (k 1).val = (y 1).val) :
    (iblk0 V c 0 t : Vec Ideal S800x512 .f32) y = xArr V c k := by
  obtain ⟨e0, e1, -, -, -, -⟩ := matmul_blocks t
  unfold iblk0
  rw [View.read_apply]
  show V c main_arg0 _ = V c main_arg0 _
  refine congrArg (V c main_arg0) (funext fun a => Fin.ext ?_)
  match a with
  | ⟨0, _⟩ => show win0_0.index t (0 : Fin 2) * 800 + 1 * (y 0).val = (k 0).val; rw [e0, hk0]; omega
  | ⟨1, _⟩ => show win0_0.index t (1 : Fin 2) * 512 + 1 * (y 1).val = (k 1).val; rw [e1, hk1]; omega

/-- W's one block is W. -/
theorem matmul_w_block (c : Dev nD) (t : Fin cfg0.N) (y : S512x1536.Idx) :
    (iblk0 V c 1 t : Vec Ideal S512x1536 .f32) y = wArr V c y := by
  obtain ⟨-, -, e2, e3, -, -⟩ := matmul_blocks t
  unfold iblk0
  rw [View.read_apply]
  show V c main_arg1 _ = V c main_arg1 _
  refine congrArg (V c main_arg1) (funext fun a => Fin.ext ?_)
  match a with
  | ⟨0, _⟩ => show win0_1.index t (0 : Fin 2) * 512 + 1 * (y 0).val = (y 0).val; rw [e2]; omega
  | ⟨1, _⟩ => show win0_1.index t (1 : Fin 2) * 1536 + 1 * (y 1).val = (y 1).val; rw [e3]; omega

/-- What point t writes back is block t of the product of x and W as the region finds them. -/
theorem matmul_flushed (c : Dev nD) (t : Fin cfg0.N) :
    (dat0 V c).flushed 2 t = ((cfg0.win 2).blk t).view.read (Elt Ideal) (rowsByCols (xArr V c) (wArr V c)) := by
  show (cfg0.win 2).cut (grid0.coords t) ((dat0 V c).after 2 t) = _
  rw [after0_2]
  unfold out0_2
  rw [View.canon_unit_zero zero2']
  simp only [View.ld_unit_zero (S := S800x512) zero2', View.ld_unit_zero (S := S512x1536) zero2']
  rw [matmul_payload]
  obtain ⟨-, -, -, -, e4, e5⟩ := matmul_blocks t
  funext j
  have hj0 : (j 0).val < 800 := (j 0).isLt
  have hj1 : (j 1).val < 1536 := (j 1).isLt
  have hemb0 : ((((cfg0.win 2).blk t).view.emb j) 0).val = 800 * t.val + (j 0).val := by
    show win0_2.index t (0 : Fin 2) * 800 + 1 * (j 0).val = _; rw [e4]; omega
  have hemb1 : ((((cfg0.win 2).blk t).view.emb j) 1).val = (j 1).val := by
    show win0_2.index t (1 : Fin 2) * 1536 + 1 * (j 1).val = _; rw [e5]; omega
  show rowsByCols (iblk0 V c 0 t) (iblk0 V c 1 t) j = rowsByCols (xArr V c) (wArr V c) (((cfg0.win 2).blk t).view.emb j)
  unfold rowsByCols
  refine Finset.sum_congr rfl fun k _ => ?_
  rw [matmul_x_block V c t _ (ix2 (n0 := 100000) (n1 := 512) ⟨((((cfg0.win 2).blk t).view.emb j) 0).val, (((cfg0.win 2).blk t).view.emb j 0).isLt⟩ k)
        (by show ((((cfg0.win 2).blk t).view.emb j) 0).val = 800 * t.val + (j 0).val; exact hemb0) rfl,
      matmul_w_block V c t]
  refine congrArg (fun z => _ * wArr V c z) (funext fun a => Fin.ext ?_)
  match a with
  | ⟨0, _⟩ => rfl
  | ⟨1, _⟩ => exact hemb1.symm

/-- Every row of the output array is in the block of the point that is the row's number divided by 800. -/
theorem matmul_cover (i : S100000x1536.Idx) :
    ∃ t : Fin cfg0.N, (cfg0.win 2).flush t = true ∧ i ∈ ((cfg0.win 2).blk t).view.set := by
  have hi0 : (i 0).val < 100000 := (i 0).isLt
  have hi1 : (i 1).val < 1536 := (i 1).isLt
  have hN : cfg0.N = 125 := N_0
  let t : Fin cfg0.N := ⟨(i 0).val / 800, by rw [hN]; omega⟩
  obtain ⟨-, -, -, -, e4, e5⟩ := matmul_blocks t
  refine ⟨t, flush0_2 t, ?_⟩
  show i ∈ ((View.whole main_v0).slice (win0_2.rect t)).set
  rw [View.set_slice_whole, Rect.mem_set_unit]
  intro a
  match a with
  | ⟨0, _⟩ =>
    show win0_2.index t (0 : Fin 2) * 800 ≤ (i 0).val ∧ (i 0).val < win0_2.index t (0 : Fin 2) * 800 + 800
    rw [e4]; show (i 0).val / 800 * 800 ≤ (i 0).val ∧ (i 0).val < (i 0).val / 800 * 800 + 800; omega
  | ⟨1, _⟩ =>
    show win0_2.index t (1 : Fin 2) * 1536 ≤ (i 1).val ∧ (i 1).val < win0_2.index t (1 : Fin 2) * 1536 + 1536
    rw [e5]; omega

/-- After the first region its output array is the product of x and W as the region found them. -/
theorem matmul_final (c : Dev nD) : (dat0 V c).arrAt 2 cfg0.N = rowsByCols (xArr V c) (wArr V c) :=
  (dat0 V c).arrAt_eq_of_cover 2 (rowsByCols (xArr V c) (wArr V c)) (fun t _ => matmul_flushed V c t) matmul_cover

end Region

end Cert.KernelIdeal.Whole

end
-- ==== Proof.PostRegion.lean ====
/-
  The second kernel region read as a value, at the extended reals. Its body takes a block of 800 rows of the
  [100000, 1536] array and the bias vector, and writes, at row p and column q (q < 512),
      tanh (((a[p, q] + a[p, 512 + q]) + a[p, 1024 + q]) + bias[q]).
  The function `slotSum` states this once for any number of rows, so the same definition reads a block and the
  whole array. The blocks of the output tile its array (point t holds rows 800 t … 800 t + 799), and the input
  block at point t is the same rows of the input array: hence after the region the output array is `slotSum`
  of the input array as the region found it.
-/
import proofs.«167288_j47536698032657_1_alg».proof.Proof.Gen.KernelIdeal.Frame
import Idealize.ShloMosaic.Lib.Pipeline.Value
import Idealize.ShloMosaic.Lib.ValueIdx

set_option maxRecDepth 16384

noncomputable section

namespace Cert.KernelIdeal.Whole

open Cert.KernelIdeal Cert.KernelIdeal.Gen
open Idealize.ShloMosaic Idealize.ShloMosaic.TcCoe Idealize.SL.Sem Idealize.ShloMosaic.ValueIdx
open Idealize.ShloMosaic.Pipeline (Dat)

/-- Row `i 0`, column `o + i 1` of a 1536-column array: the entry of slot `o / 512` that sits over column `i 1`. -/
abbrev slotIdx {R : Nat} (i : (⟨2, ![R, 512]⟩ : Shape).Idx) (o : Nat) (ho : o + 512 ≤ 1536) : (⟨2, ![R, 1536]⟩ : Shape).Idx :=
  ix2 (n0 := R) (n1 := 1536) ⟨(i 0).val, (i 0).isLt⟩ ⟨o + (i 1).val, by have h : (i 1).val < 512 := (i 1).isLt; show o + (i 1).val < 1536; omega⟩

/-- The three slots of a row added left to right, the bias added, then tanh: one entry of the result. -/
def slotSum {R : Nat} (a : (⟨2, ![R, 1536]⟩ : Shape).Idx → EReal) (b : (⟨1, ![512]⟩ : Shape).Idx → EReal) :
    (⟨2, ![R, 512]⟩ : Shape).Idx → EReal :=
  fun i => Ideal.tanh (((a (slotIdx i 0 (by omega)) + a (slotIdx i 512 (by omega))) + a (slotIdx i 1024 (by omega)))
    + b (ix1 (n := 512) ⟨(i 1).val, (i 1).isLt⟩))

theorem zero2 : (![0, 0] : Fin 2 → Nat) = fun _ => 0 := funext fun a => by fin_cases a <;> rfl
theorem zero1 : (![0] : Fin 1 → Nat) = fun _ => 0 := funext fun a => by fin_cases a; rfl

theorem tanh_at {s : Shape} (v : FVec Ideal s .f32) (i : s.Idx) : tanh v i = Ideal.tanh (v i) := rfl

/-- The body's arithmetic is the slot sum of its two loaded blocks. -/
theorem post_payload (x0 : Vec Ideal S800x1536 .f32) (x1 : Vec Ideal S512 .f32) : k1_pay1 x0 x1 = slotSum x0 x1 := by
  funext j
  unfold k1_pay1 slotSum
  dsimp only
  rw [tanh_at, addf_apply, addf_apply, addf_apply, shapeCast_self]
  have hj0 : (j 0).val < 800 := (j 0).isLt
  have hj1 : (j 1).val < 512 := (j 1).isLt
  rw [extractStridedSlice_apply ![0, 0] x0 slices_S800x1536_o0_0_S800x512 j (slotIdx j 0 (by omega))
      (fun a => by match a with
        | ⟨0, _⟩ => show (j 0).val = 0 + (j 0).val; omega
        | ⟨1, _⟩ => show 0 + (j 1).val = 0 + (j 1).val; rfl),
    extractStridedSlice_apply ![0, 512] x0 slices_S800x1536_o0_512_S800x512 j (slotIdx j 512 (by omega))
      (fun a => by match a with
        | ⟨0, _⟩ => show (j 0).val = 0 + (j 0).val; omega
        | ⟨1, _⟩ => show 512 + (j 1).val = 512 + (j 1).val; rfl),
    extractStridedSlice_apply ![0, 1024] x0 slices_S800x1536_o0_1024_S800x512 j (slotIdx j 1024 (by omega))
      (fun a => by match a with
        | ⟨0, _⟩ => show (j 0).val = 0 + (j 0).val; omega
        | ⟨1, _⟩ => show 1024 + (j 1).val = 1024 + (j 1).val; rfl),
    broadcastTo_apply (shapeCast S1x512 x1 shapeCasts_S512_S1x512) broadcasts_S1x512_S800x512 j
      (ix2 (n0 := 1) (n1 := 512) ⟨0, Nat.one_pos⟩ ⟨(j 1).val, hj1⟩)
      (fun a => by match a with
        | ⟨0, _⟩ => show 0 = if (1 : Nat) = 1 then 0 else _; rw [if_pos rfl]
        | ⟨1, _⟩ => show (j 1).val = if (512 : Nat) = 1 then 0 else (j 1).val; rw [if_neg (by decide)]),
    shapeCast_apply x1 shapeCasts_S512_S1x512 (ix2 (n0 := 1) (n1 := 512) ⟨0, Nat.one_pos⟩ ⟨(j 1).val, hj1⟩)
      (ix1 (n := 512) ⟨(j 1).val, hj1⟩)
      (by rw [Shape.rowMajor_val_one, Shape.rowMajor_val_two]; show (j 1).val = 0 * 512 + (j 1).val; omega)]

section Region
variable (V : (c : Dev nD) → (b : Ref sig .tc) → Buf (Elt Ideal) ((c : Thread nD τ).loc b))

/-- Where the second region's windows sit at point t: the input's and the output's row block is t, the column block 0. -/
theorem post_blocks : ∀ t : Fin cfg1.N, win1_0.index t (0 : Fin 2) = t.val ∧ win1_0.index t (1 : Fin 2) = 0
    ∧ win1_2.index t (0 : Fin 2) = t.val ∧ win1_2.index t (1 : Fin 2) = 0 ∧ win1_1.index t (0 : Fin 1) = 0 :=
  (by decide +kernel : ∀ t : Fin grid1.N, _)

/-- The input array and the bias as the region finds them, at their literal types. -/
abbrev aggArr (c : Dev nD) : Vec Ideal S100000x1536 .f32 := V c main_v14
abbrev biasArr (c : Dev nD) : Vec Ideal S512 .f32 := V c main_arg2

/-- The input block at point t is rows 800 t … of the input array. -/
theorem post_in_block (c : Dev nD) (t : Fin cfg1.N) (y : S800x1536.Idx) (k : S100000x1536.Idx)
    (hk0 : (k 0).val = 800 * t.val + (y 0).val) (hk1 : (k 1).val = (y 1).val) :
    (iblk1 V c 0 t : Vec Ideal S800x1536 .f32) y = aggArr V c k := by
  obtain ⟨e0, e1, -, -, -⟩ := post_blocks t
  unfold iblk1
  rw [View.read_apply]
  show V c main_v14 _ = V c main_v14 _
  refine congrArg (V c main_v14) (funext fun a => Fin.ext ?_)
  match a with
  | ⟨0, _⟩ => show win1_0.index t (0 : Fin 2) * 800 + 1 * (y 0).val = (k 0).val; rw [e0, hk0]; omega
  | ⟨1, _⟩ => show win1_0.index t (1 : Fin 2) * 1536 + 1 * (y 1).val = (k 1).val; rw [e1, hk1]; omega

/-- The bias window's one block is the whole bias vector. -/
theorem post_bias_block (c : Dev nD) (t : Fin cfg1.N) (y : S512.Idx) :
    (iblk1 V c 1 t : Vec Ideal S512 .f32) y = biasArr V c y := by
  obtain ⟨-, -, -, -, e4⟩ := post_blocks t
  unfold iblk1
  rw [View.read_apply]
  show V c main_arg2 _ = V c main_arg2 _
  refine congrArg (V c main_arg2) (funext fun a => Fin.ext ?_)
  match a with
  | ⟨0, _⟩ => show win1_1.index t (0 : Fin 1) * 512 + 1 * (y 0).val = (y 0).val; rw [e4]; omega

/-- What point t writes back is block t of the slot sum of the region's input array and the bias. -/
theorem post_flushed (c : Dev nD) (t : Fin cfg1.N) :
    (dat1 V c).flushed 2 t = ((cfg1.win 2).blk t).view.read (Elt Ideal) (slotSum (aggArr V c) (biasArr V c)) := by
  show (cfg1.win 2).cut (grid1.coords t) ((dat1 V c).after 2 t) = _
  rw [after1_2]
  unfold out1_2
  rw [View.canon_unit_zero zero2]
  simp only [View.ld_unit_zero (S := S800x1536) zero2, View.ld_unit_zero (S := S512) zero1]
  rw [post_payload]
  obtain ⟨-, -, e2, e3, -⟩ := post_blocks t
  funext j
  have hj0 : (j 0).val < 800 := (j 0).isLt
  have hj1 : (j 1).val < 512 := (j 1).isLt
  have hemb0 : ((((cfg1.win 2).blk t).view.emb j) 0).val = 800 * t.val + (j 0).val := by
    show win1_2.index t (0 : Fin 2) * 800 + 1 * (j 0).val = _; rw [e2]; omega
  have hemb1 : ((((cfg1.win 2).blk t).view.emb j) 1).val = (j 1).val := by
    show win1_2.index t (1 : Fin 2) * 512 + 1 * (j 1).val = _; rw [e3]; omega
  show slotSum (iblk1 V c 0 t) (iblk1 V c 1 t) j = slotSum (aggArr V c) (biasArr V c) (((cfg1.win 2).blk t).view.emb j)
  unfold slotSum
  rw [post_in_block V c t (slotIdx j 0 (by omega)) (slotIdx (((cfg1.win 2).blk t).view.emb j) 0 (by omega))
        (by show ((((cfg1.win 2).blk t).view.emb j) 0).val = 800 * t.val + (j 0).val; exact hemb0)
        (by show 0 + ((((cfg1.win 2).blk t).view.emb j) 1).val = 0 + (j 1).val; rw [hemb1]),
      post_in_block V c t (slotIdx j 512 (by omega)) (slotIdx (((cfg1.win 2).blk t).view.emb j) 512 (by omega))
        (by show ((((cfg1.win 2).blk t).view.emb j) 0).val = 800 * t.val + (j 0).val; exact hemb0)
        (by show 512 + ((((cfg1.win 2).blk t).view.emb j) 1).val = 512 + (j 1).val; rw [hemb1]),
      post_in_block V c t (slotIdx j 1024 (by omega)) (slotIdx (((cfg1.win 2).blk t).view.emb j) 1024 (by omega))
        (by show ((((cfg1.win 2).blk t).view.emb j) 0).val = 800 * t.val + (j 0).val; exact hemb0)
        (by show 1024 + ((((cfg1.win 2).blk t).view.emb j) 1).val = 1024 + (j 1).val; rw [hemb1]),
      post_bias_block V c t]
  refine congrArg (fun z => Ideal.tanh (_ + biasArr V c z)) (funext fun a => Fin.ext ?_)
  match a with
  | ⟨0, _⟩ => exact hemb1.symm

/-- Every row of the output array is in the block of the point that is the row's number divided by 800. -/
theorem post_cover (i : S100000x512.Idx) :
    ∃ t : Fin cfg1.N, (cfg1.win 2).flush t = true ∧ i ∈ ((cfg1.win 2).blk t).view.set := by
  have hi0 : (i 0).val < 100000 := (i 0).isLt
  have hi1 : (i 1).val < 512 := (i 1).isLt
  have hN : cfg1.N = 125 := N_1
  let t : Fin cfg1.N := ⟨(i 0).val / 800, by rw [hN]; omega⟩
  obtain ⟨-, -, e2, e3, -⟩ := post_blocks t
  refine ⟨t, flush1_2 t, ?_⟩
  show i ∈ ((View.whole main_v15).slice (win1_2.rect t)).set
  rw [View.set_slice_whole, Rect.mem_set_unit]
  intro a
  match a with
  | ⟨0, _⟩ =>
    show win1_2.index t (0 : Fin 2) * 800 ≤ (i 0).val ∧ (i 0).val < win1_2.index t (0 : Fin 2) * 800 + 800
    rw [e2]; show (i 0).val / 800 * 800 ≤ (i 0).val ∧ (i 0).val < (i 0).val / 800 * 800 + 800; omega
  | ⟨1, _⟩ =>
    show win1_2.index t (1 : Fin 2) * 512 ≤ (i 1).val ∧ (i 1).val < win1_2.index t (1 : Fin 2) * 512 + 512
    rw [e3]; omega

/-- After the second region its output array is the slot sum of the input array and the bias as the region found them. -/
theorem post_final (c : Dev nD) : (dat1 V c).arrAt 2 cfg1.N = slotSum (aggArr V c) (biasArr V c) :=
  (dat1 V c).arrAt_eq_of_cover 2 (slotSum (aggArr V c) (biasArr V c)) (fun t _ => post_flushed V c t) post_cover

end Region

end Cert.KernelIdeal.Whole

end
-- ==== Proof.KernelValue.lean ====
/-
  The idealized kernel's result as one function of its six arguments. @main is three segments: the first region
  leaves h = x · W in its output array (`matmul_final`); the host stretch between the regions reshapes h to
  [100000, 3, 512], gathers its rows at the source indices, scales them by eta, adds them into zero at the
  destination indices and reshapes the sums back to [100000, 1536] — `messages` names that stretch as ONE function
  of h, eta and the two index vectors, and it is never opened —; the second region leaves the slot sum of that array
  and the bias (`post_final`). No host operation and no region writes an argument, so each is read at its launch
  contents.
-/
import proofs.«167288_j47536698032657_1_alg».proof.Proof.KernelRun
import proofs.«167288_j47536698032657_1_alg».proof.Proof.MatmulRegion
import proofs.«167288_j47536698032657_1_alg».proof.Proof.PostRegion
import Idealize.ShloMosaic.Lib.StableHlo.Run

set_option maxRecDepth 16384

noncomputable section

namespace Cert.KernelIdeal.Whole

open Cert.KernelIdeal Cert.KernelIdeal.Gen
open Idealize.ShloMosaic Idealize.ShloMosaic.TcCoe Idealize.SL.Sem Idealize.ShloMosaic.ValueIdx Idealize.ShloMosaic.StableHlo

/-- The host stretch between the two regions, up to its last reshape: the rows of `h` (as [100000, 3, 512]) gathered
    at the wrapped source indices, times eta broadcast along the last axis, added into zero at the destination
    indices. -/
def messages (h : (⟨S100000x1536, .f32⟩ : BufTy).Contents (Elt Ideal)) (eta : (⟨S100000x3x1, .f32⟩ : BufTy).Contents (Elt Ideal))
    (src dst : (⟨S100000, .i32⟩ : BufTy).Contents (Elt Ideal)) : (⟨S100000x3x512, .f32⟩ : BufTy).Contents (Elt Ideal) :=
  Host.scatterAdd scatter_S100000x3x512_S100000x1_S100000x3x512_12_0_0_1
    (broadcastInDim S100000x3x512 ![] bcast_S_S100000x3x512 (constant (F := Ideal) S_ .f32 0x00000000#32))
    (broadcastInDim S100000x1 ![0] bcast_S100000_S100000x1_0 dst)
    (mulf (Host.gather gather_S100000x3x512_S100000x1_S100000x3x512_12_0_n_n_0_1_13512
        (shapeCast _ h shapeCasts_S100000x1536_S100000x3x512)
        (broadcastInDim S100000x1 ![0] bcast_S100000_S100000x1_0
          (select (cmpi .slt src (broadcastInDim S100000 ![] bcast_S_S100000 (constantI S_ 32 0#32)))
            (addi src (broadcastInDim S100000 ![] bcast_S_S100000 (constantI S_ 32 100000#32))) src)))
      (broadcastInDim S100000x3x512 ![0, 1, 2] bcast_S100000x3x1_S100000x3x512_0_1_2 eta))

/-- The kernel's result: the slot sum of the messages' sums, read as [100000, 1536], and the bias. -/
def kernelResult (x : (⟨S100000x512, .f32⟩ : BufTy).Contents (Elt Ideal)) (w : (⟨S512x1536, .f32⟩ : BufTy).Contents (Elt Ideal))
    (bias : (⟨S512, .f32⟩ : BufTy).Contents (Elt Ideal)) (eta : (⟨S100000x3x1, .f32⟩ : BufTy).Contents (Elt Ideal))
    (src dst : (⟨S100000, .i32⟩ : BufTy).Contents (Elt Ideal)) : (⟨S100000x512, .f32⟩ : BufTy).Contents (Elt Ideal) :=
  slotSum (shapeCast S100000x1536 (messages (rowsByCols x w) eta src dst) shapeCasts_S100000x3x512_S100000x1536) bias

variable (m : (ℓ : Loc nD τ sig) → Buf (Elt Ideal) ℓ) (ρ : Dev nD → PrngReg)

/-- At the second region's entry its input array holds the host stretch applied to what the first region left. -/
theorem stretch_agg (c : Dev nD) :
    V2 m ρ c main_v14 = shapeCast S100000x1536 (messages (W1 m ρ c (Proc.devRef .tc main_v0)) (W1 m ρ c (Proc.devRef .tc main_arg3))
      (W1 m ρ c (Proc.devRef .tc main_arg4)) (W1 m ρ c (Proc.devRef .tc main_arg5))) shapeCasts_S100000x3x512_S100000x1536 := by
  show StableHlo.after hostOps1 (W1 m ρ c) (Proc.devRef .tc main_v14) = _
  unfold messages
  after_results
  rfl

/-- The host stretch does not write the bias. -/
theorem stretch_bias (c : Dev nD) : V2 m ρ c main_arg2 = W1 m ρ c (Proc.devRef .tc main_arg2) := by
  show StableHlo.after hostOps1 (W1 m ρ c) (Proc.devRef .tc main_arg2) = _
  after_results

/-- What the first region leaves: its output array at the product, every argument as launched. -/
theorem after_matmul_v0 (c : Dev nD) : W1 m ρ c (Proc.devRef .tc main_v0)
    = rowsByCols (m ((c : Thread nD τ).loc main_arg0)) (m ((c : Thread nD τ).loc main_arg1)) :=
  (W1_arr m ρ c 2).trans (matmul_final (V0 m ρ) c)
theorem after_matmul_arg2 (c : Dev nD) : W1 m ρ c (Proc.devRef .tc main_arg2) = m ((c : Thread nD τ).loc main_arg2) :=
  W1_of_ne m ρ c main_arg2 (by decide)
theorem after_matmul_arg3 (c : Dev nD) : W1 m ρ c (Proc.devRef .tc main_arg3) = m ((c : Thread nD τ).loc main_arg3) :=
  W1_of_ne m ρ c main_arg3 (by decide)
theorem after_matmul_arg4 (c : Dev nD) : W1 m ρ c (Proc.devRef .tc main_arg4) = m ((c : Thread nD τ).loc main_arg4) :=
  W1_of_ne m ρ c main_arg4 (by decide)
theorem after_matmul_arg5 (c : Dev nD) : W1 m ρ c (Proc.devRef .tc main_arg5) = m ((c : Thread nD τ).loc main_arg5) :=
  W1_of_ne m ρ c main_arg5 (by decide)

/-- The last boundary's contents of the result buffer are `kernelResult` of the launch contents of the arguments. -/
theorem result_value (c : Dev nD) : W3 m ρ c (Proc.devRef .tc main_v15)
    = kernelResult (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (W3_arr m ρ c 2).trans ((post_final (V2 m ρ) c).trans ?_)
  show slotSum (V2 m ρ c main_v14) (V2 m ρ c main_arg2) = _
  rw [stretch_agg, stretch_bias, after_matmul_v0, after_matmul_arg2, after_matmul_arg3, after_matmul_arg4, after_matmul_arg5]
  rfl

/-- The idealized kernel's run: the result array ends at `kernelResult` of the arguments, the arguments unchanged. -/
theorem run : θ_run defs (onTc (τ := τ) (main (F := Ideal))) ⟨m, fun _ => 0, ρ⟩ (fun r => ∀ c : Dev nD,
      r.2.mem ((c.tc : Thread nD τ).loc main_v15)
        = kernelResult (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c).1.trans (result_value m ρ c), (h c).2⟩) (run_result m ρ)

end Cert.KernelIdeal.Whole

end
-- ==== Proof.Bridge.lean ====
/-
  The reference's result is the kernel's function of the arguments, at the extended reals.
  The reference computes h = x · W by one contraction, the same sum over k < 512 as `rowsByCols`; applies the same
  host operations to h as the kernel's program does between its two regions (`messages`, compared as one function and
  never opened); and then adds the three slots by a sum over the middle axis started at zero, adds the bias and takes
  tanh. Entry [n, s, j] of the [100000, 3, 512] array is entry [n, 512 s + j] of its [100000, 1536] reshape, and
  0 + (a₀ + a₁ + a₂) = (a₀ + a₁) + a₂ on the extended reals, so the two results agree entry by entry. Only the zero of
  addition is used: no distributivity or cancellation, hence no finiteness of the inputs.
-/
import proofs.«167288_j47536698032657_1_alg».proof.Proof.Gen.ReferenceIdeal.Read
import proofs.«167288_j47536698032657_1_alg».proof.Proof.KernelValue

set_option maxRecDepth 16384

noncomputable section

namespace Cert.RefBridge

open Idealize.ShloMosaic Idealize.ShloMosaic.TcCoe Idealize.ShloMosaic.ValueIdx
open Cert.KernelIdeal.Whole
open Cert.ReferenceIdeal Cert.ReferenceIdeal.Read

/-- The reference's contraction is the row-by-column sum. -/
theorem matmul_ref (x0 : (⟨S100000x512, .f32⟩ : BufTy).Contents (Elt Ideal)) (x1 : (⟨S512x1536, .f32⟩ : BufTy).Contents (Elt Ideal)) :
    val_main_v0 (F := Ideal) x0 x1 = rowsByCols x0 x1 := by
  funext j
  rw [val_main_v0_apply]
  unfold rowsByCols
  refine Finset.sum_congr rfl fun k _ => ?_
  refine congrArg₂ (· * ·) (congrArg x0 (funext fun a => ?_)) (congrArg x1 (funext fun a => ?_))
  · match a with
    | ⟨0, _⟩ => rfl
    | ⟨1, _⟩ => rfl
  · match a with
    | ⟨0, _⟩ => rfl
    | ⟨1, _⟩ => rfl

/-- The reference's stages from the reshape of h to the scatter-add are the kernel program's host stretch. -/
theorem messages_ref (x0 : (⟨S100000x512, .f32⟩ : BufTy).Contents (Elt Ideal)) (x1 : (⟨S512x1536, .f32⟩ : BufTy).Contents (Elt Ideal))
    (x3 : (⟨S100000x3x1, .f32⟩ : BufTy).Contents (Elt Ideal)) (x4 x5 : (⟨S100000, .i32⟩ : BufTy).Contents (Elt Ideal)) :
    val_main_v13 (F := Ideal) x0 x1 x3 x4 x5 = messages (val_main_v0 (F := Ideal) x0 x1) x3 x4 x5 := rfl

/-- Entry [n, s, j] of a [100000, 3, 512] array is entry [n, 512 s + j] of its reshape to [100000, 1536]. -/
theorem slot_entry (y : (⟨S100000x3x512, .f32⟩ : BufTy).Contents (Elt Ideal)) (i : S100000x512.Idx) (s : Fin 3) (o : Nat) (ho : o + 512 ≤ 1536)
    (hs : o = 512 * s.val) :
    shapeCast Cert.KernelIdeal.S100000x1536 y Cert.KernelIdeal.Facts₀.shapeCasts_S100000x3x512_S100000x1536 (slotIdx i o ho) = y (idx_main_v14 i s) := by
  have hi0 : (i 0).val < 100000 := (i 0).isLt
  have hi1 : (i 1).val < 512 := (i 1).isLt
  have hs3 : s.val < 3 := s.isLt
  refine shapeCast_apply y _ (slotIdx i o ho) (idx_main_v14 i s) ?_
  rw [Shape.rowMajor_val_three, Shape.rowMajor_val_two]
  show ((i 0).val * 3 + s.val) * 512 + (i 1).val = (i 0).val * 1536 + (o + (i 1).val)
  omega

/-- The reference's result is `kernelResult` of the same arguments. -/
theorem reference_eq (x0 : (⟨S100000x512, .f32⟩ : BufTy).Contents (Elt Ideal)) (x1 : (⟨S512x1536, .f32⟩ : BufTy).Contents (Elt Ideal))
    (x2 : (⟨S512, .f32⟩ : BufTy).Contents (Elt Ideal)) (x3 : (⟨S100000x3x1, .f32⟩ : BufTy).Contents (Elt Ideal))
    (x4 x5 : (⟨S100000, .i32⟩ : BufTy).Contents (Elt Ideal)) :
    val_main_v18 (F := Ideal) x0 x1 x2 x3 x4 x5 = kernelResult x0 x1 x2 x3 x4 x5 := by
  funext i
  rw [val_main_v18_apply, val_main_v17_apply, val_main_v14_apply, val_main_v16_apply, val_main_v15_apply, val_main_cst_1_apply,
    messages_ref, matmul_ref, Fin.sum_univ_three]
  unfold kernelResult slotSum
  generalize messages (rowsByCols x0 x1) x3 x4 x5 = y
  rw [slot_entry y i 0 0 (by omega) rfl, slot_entry y i 1 512 (by omega) rfl, slot_entry y i 2 1024 (by omega) rfl]
  have hb : idx_main_v15 (idx_main_v16 i) = ix1 (n := 512) ⟨(i 1).val, (i 1).isLt⟩ := funext fun a => by
    match a with
    | ⟨0, _⟩ => rfl
  rw [hb, Ideal.hostUnary_tanh_def, Ideal.addf_def]
  show Ideal.tanh (Ideal.ofBits .f32 0x00000000#32 + _ + _) = _
  rw [Ideal.ofBits_zero_f32, zero_add]

end Cert.RefBridge

end
-- ==== Proof.lean ====
/-
  The certificate of a two-stage graph layer against its jnp reference, over the extended reals.
  Both programs compute, for node n and channel j,
      tanh ( Σ over the three slots s of A[n, s, j]  +  bias[j] ),
  where A is the array of messages summed into their destination nodes: row src[e] of h = x · W, viewed as
  [3, 512], scaled by eta[e, s], added into row dst[e]. The kernel program forms h by a matrix product over blocks
  of 800 rows and the slot sum by three column slices of the [100000, 1536] view of A; the reference forms h by
  one contraction and the slot sum by a reduction over the middle axis started at zero. The product of a block of
  rows is the same rows of the whole product, the host operations between are the same in both programs, and the
  two ways of adding three terms agree by the zero of addition alone, so the results are equal entry by entry with
  no condition on the inputs beyond the statement's.
  The frames of the two kernel programs are their generated frame certificates; the reference's frame is its
  generated run with the result dropped; the idealization rewrote nothing, so `preserves` has nothing to state.
-/
import proofs.«167288_j47536698032657_1_alg».proof.Defs
import proofs.«167288_j47536698032657_1_alg».proof.Proof.Gen.Kernel
import proofs.«167288_j47536698032657_1_alg».proof.Proof.Gen.Kernel.Skeleton
import proofs.«167288_j47536698032657_1_alg».proof.Proof.Gen.Kernel.Launch
import proofs.«167288_j47536698032657_1_alg».proof.Proof.Gen.Kernel.Points
import proofs.«167288_j47536698032657_1_alg».proof.Proof.Gen.Kernel.Frame
import proofs.«167288_j47536698032657_1_alg».proof.Proof.Gen.KernelIdeal
import proofs.«167288_j47536698032657_1_alg».proof.Proof.Gen.KernelIdeal.Skeleton
import proofs.«167288_j47536698032657_1_alg».proof.Proof.Gen.KernelIdeal.Launch
import proofs.«167288_j47536698032657_1_alg».proof.Proof.Gen.KernelIdeal.Points
import proofs.«167288_j47536698032657_1_alg».proof.Proof.Gen.KernelIdeal.Frame
import proofs.«167288_j47536698032657_1_alg».proof.Proof.Gen.ReferenceIdeal
import proofs.«167288_j47536698032657_1_alg».proof.Proof.Gen.Pre_finite_inputs
import proofs.«167288_j47536698032657_1_alg».proof.Proof.Gen.ReferenceIdeal.Run
import proofs.«167288_j47536698032657_1_alg».proof.Proof.Gen.ReferenceIdeal.Read
import proofs.«167288_j47536698032657_1_alg».proof.Proof.KernelValue
import proofs.«167288_j47536698032657_1_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the six arguments both programs end with the result array at `kernelResult` of the
    arguments: the kernel's by its run read through both regions, the reference's by its run and the bridge. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, Cert.RefBridge.reference_eq,
    (hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
